-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x4 : Shape := ⟨2, ![8000000, 4]⟩
abbrev S8000000x3 : Shape := ⟨2, ![8000000, 3]⟩
abbrev S_ : Shape := ⟨0, ![]⟩
abbrev S8000000 : Shape := ⟨1, ![8000000]⟩

class Facts : Prop where
  bcast_S_S8000000x4 : S_.BroadcastsInDim S8000000x4 (![] : Fin 0 → Fin S8000000x4.rank)
  reducesTo_S8000000x4_S_d0_1 : S8000000x4.ReducesTo [0, 1] S_
  h_S_ : 0 < S_.numel
  bcast_S_S8000000x3 : S_.BroadcastsInDim S8000000x3 (![] : Fin 0 → Fin S8000000x3.rank)
  reducesTo_S8000000x3_S_d0_1 : S8000000x3.ReducesTo [0, 1] S_
  reducesTo_S8000000x4_S8000000_d1 : S8000000x4.ReducesTo [1] S8000000
  bcast_S_S8000000 : S_.BroadcastsInDim S8000000 (![] : Fin 0 → Fin S8000000.rank)
  reducesTo_S8000000_S_d0 : S8000000.ReducesTo [0] S_

variable [Facts]

def fn {F : FTy → Type} [FloatOps F] (main_arg0 : FVec F S8000000x4 .f32) (main_arg1 : FVec F S8000000x3 .f32) : IVec S_ 1 :=
  let main_v0 : FVec F S8000000x4 .f32 := Host.absf main_arg0
  let main_cst : FVec F S_ .f32 := constant S_ .f32 0x7F800000#32
  let main_v1 : FVec F S8000000x4 .f32 := broadcastInDim S8000000x4 ![] bcast_S_S8000000x4 main_cst
  let main_v2 : IVec S8000000x4 1 := cmpf .olt main_v0 main_v1
  let main_c : IVec S_ 1 := constantI S_ 1 1#1
  let main_v3 : IVec S_ 1 := (fun x v => Host.reduce IntOp.andi x v reducesTo_S8000000x4_S_d0_1 h_S_) main_v2 main_c
  let main_v4 : FVec F S8000000x3 .f32 := Host.absf main_arg1
  let main_cst_0 : FVec F S_ .f32 := constant S_ .f32 0x7F800000#32
  let main_v5 : FVec F S8000000x3 .f32 := broadcastInDim S8000000x3 ![] bcast_S_S8000000x3 main_cst_0
  let main_v6 : IVec S8000000x3 1 := cmpf .olt main_v4 main_v5
  let main_c_1 : IVec S_ 1 := constantI S_ 1 1#1
  let main_v7 : IVec S_ 1 := (fun x v => Host.reduce IntOp.andi x v reducesTo_S8000000x3_S_d0_1 h_S_) main_v6 main_c_1
  let main_v8 : IVec S_ 1 := andi main_v3 main_v7
  let main_v9 : FVec F S8000000x4 .f32 := mulf main_arg0 main_arg0
  let main_cst_2 : FVec F S_ .f32 := constant S_ .f32 0x00000000#32
  let main_v10 : FVec F S8000000 .f32 := (fun x v => Host.reduceAdd x v reducesTo_S8000000x4_S8000000_d1 h_S_) main_v9 main_cst_2
  let main_cst_3 : FVec F S_ .f32 := constant S_ .f32 0x00000000#32
  let main_v11 : FVec F S8000000 .f32 := broadcastInDim S8000000 ![] bcast_S_S8000000 main_cst_3
  let main_v12 : IVec S8000000 1 := cmpf .ogt main_v10 main_v11
  let main_c_4 : IVec S_ 1 := constantI S_ 1 1#1
  let main_v13 : IVec S_ 1 := (fun x v => Host.reduce IntOp.andi x v reducesTo_S8000000_S_d0 h_S_) main_v12 main_c_4
  let main_v14 : IVec S_ 1 := andi main_v8 main_v13
  main_v14
-- ==== Kernel.lean ====
abbrev S8000000x4 : Shape := ⟨2, ![8000000, 4]⟩
abbrev S8000000x3 : Shape := ⟨2, ![8000000, 3]⟩
abbrev S8000000x9 : Shape := ⟨2, ![8000000, 9]⟩
abbrev S8000000x3x3 : Shape := ⟨3, ![8000000, 3, 3]⟩
abbrev S4000x4 : Shape := ⟨2, ![4000, 4]⟩
abbrev S4000x3 : Shape := ⟨2, ![4000, 3]⟩
abbrev S4000x9 : Shape := ⟨2, ![4000, 9]⟩
abbrev S4000 : Shape := ⟨1, ![4000]⟩
abbrev S4000x1 : Shape := ⟨2, ![4000, 1]⟩

abbrev nBuf : Space → Nat
  | .hbm => 4
  | .vmem => 6
  | .smem => 0
  | _ => 0

abbrev bufTy : (tb : Table) → Fin (tcTables nBuf tb) → BufTy
  | .hbm, ⟨0, _⟩ => ⟨S8000000x4, .f32⟩
  | .hbm, ⟨1, _⟩ => ⟨S8000000x3, .f32⟩
  | .hbm, ⟨2, _⟩ => ⟨S8000000x9, .f32⟩
  | .hbm, ⟨3, _⟩ => ⟨S8000000x3x3, .f32⟩
  | .local _ .vmem, ⟨0, _⟩ => ⟨S4000x4, .f32⟩
  | .local _ .vmem, ⟨1, _⟩ => ⟨S4000x4, .f32⟩
  | .local _ .vmem, ⟨2, _⟩ => ⟨S4000x3, .f32⟩
  | .local _ .vmem, ⟨3, _⟩ => ⟨S4000x3, .f32⟩
  | .local _ .vmem, ⟨4, _⟩ => ⟨S4000x9, .f32⟩
  | .local _ .vmem, ⟨5, _⟩ => ⟨S4000x9, .f32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8000000x9_S8000000x3x3 : S8000000x9.ShapeCasts S8000000x3x3
  inb_S4000x4_S4000x4_0_0 : ∀ a, (![0, 0] : Fin 2 → Nat) a + S4000x4.size a ≤ S4000x4.size a
  h_S4000x4 : 0 < S4000x4.numel
  reduces_S4000x4_S4000 : S4000x4.Reduces [1] S4000
  shapeCasts_S4000_S4000x1 : S4000.ShapeCasts S4000x1
  broadcasts_S4000x1_S4000x4 : S4000x1.Broadcasts S4000x4
  slices_S4000x4_o0_0_S4000x1 : S4000x4.Slices ![0, 0] S4000x1
  slices_S4000x4_o0_1_S4000x1 : S4000x4.Slices ![0, 1] S4000x1
  slices_S4000x4_o0_2_S4000x1 : S4000x4.Slices ![0, 2] S4000x1
  slices_S4000x4_o0_3_S4000x1 : S4000x4.Slices ![0, 3] S4000x1
  inb_S4000x3_S4000x3_0_0 : ∀ a, (![0, 0] : Fin 2 → Nat) a + S4000x3.size a ≤ S4000x3.size a
  h_S4000x3 : 0 < S4000x3.numel
  slices_S4000x3_o0_0_S4000x1 : S4000x3.Slices ![0, 0] S4000x1
  slices_S4000x3_o0_1_S4000x1 : S4000x3.Slices ![0, 1] S4000x1
  slices_S4000x3_o0_2_S4000x1 : S4000x3.Slices ![0, 2] S4000x1
  concatenates_S4000x1_S4000x1_S4000x1_S4000x1_S4000x1_S4000x1_S4000x1_S4000x1_S4000x1_S4000x9_d1 : Shape.Concatenates [S4000x1, S4000x1, S4000x1, S4000x1, S4000x1, S4000x1, S4000x1, S4000x1, S4000x1] S4000x9 1
  inb_S4000x9_S4000x9_0_0 : ∀ a, (![0, 0] : Fin 2 → Nat) a + S4000x9.size a ≤ S4000x9.size a
  h_S4000x9 : 0 < S4000x9.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S8000000x4.size a
  hwx0_0 : ∀ i : grid0.Coords, EltTy.bits .f32 = 32 ∨ (Rect.block (s := S8000000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S8000000x3.size a
  hwx0_1 : ∀ i : grid0.Coords, EltTy.bits .f32 = 32 ∨ (Rect.block (s := S8000000x3) S4000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x9.size a ≤ S8000000x9.size a
  hwx0_2 : ∀ i : grid0.Coords, EltTy.bits .f32 = 32 ∨ (Rect.block (s := S8000000x9) S4000x9.size (cc0_transform_2 i) (hinb0_2 i)).WholeWords (EltTy.packing .f32)

variable [Facts₀]

abbrev win0_0 : Pipeline.Window sig grid0 :=
  Pipeline.Window.ofSpec (Memref.whole main_arg0) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S4000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000000x4 : Shape := ⟨2, ![8000000, 4]⟩
abbrev S8000000x3 : Shape := ⟨2, ![8000000, 3]⟩
abbrev S_ : Shape := ⟨0, ![]⟩
abbrev S8000000 : Shape := ⟨1, ![8000000]⟩
abbrev S8000000x1 : Shape := ⟨2, ![8000000, 1]⟩
abbrev S8000000x9 : Shape := ⟨2, ![8000000, 9]⟩
abbrev S8000000x3x3 : Shape := ⟨3, ![8000000, 3, 3]⟩
abbrev S8000000x1x3 : Shape := ⟨3, ![8000000, 1, 3]⟩

abbrev nBuf : Space → Nat
  | .hbm => 95
  | .vmem => 0
  | .smem => 0
  | _ => 0

abbrev bufTy : (tb : Table) → Fin (tcTables nBuf tb) → BufTy
  | .hbm, ⟨0, _⟩ => ⟨S8000000x4, .f32⟩
  | .hbm, ⟨1, _⟩ => ⟨S8000000x3, .f32⟩
  | .hbm, ⟨2, _⟩ => ⟨S8000000x4, .f32⟩
  | .hbm, ⟨3, _⟩ => ⟨S_, .f32⟩
  | .hbm, ⟨4, _⟩ => ⟨S8000000, .f32⟩
  | .hbm, ⟨5, _⟩ => ⟨S8000000x1, .f32⟩
  | .hbm, ⟨6, _⟩ => ⟨S8000000x1, .f32⟩
  | .hbm, ⟨7, _⟩ => ⟨S8000000x4, .f32⟩
  | .hbm, ⟨8, _⟩ => ⟨S8000000x4, .f32⟩
  | .hbm, ⟨9, _⟩ => ⟨S8000000x1, .f32⟩
  | .hbm, ⟨10, _⟩ => ⟨S8000000, .f32⟩
  | .hbm, ⟨11, _⟩ => ⟨S8000000x1, .f32⟩
  | .hbm, ⟨12, _⟩ => ⟨S8000000, .f32⟩
  | .hbm, ⟨13, _⟩ => ⟨S8000000x1, .f32⟩
  | .hbm, ⟨14, _⟩ => ⟨S8000000, .f32⟩
  | .hbm, ⟨15, _⟩ => ⟨S8000000x1, .f32⟩
  | .hbm, ⟨16, _⟩ => ⟨S8000000, .f32⟩
  | .hbm, ⟨17, _⟩ => ⟨S8000000, .f32⟩
  | .hbm, ⟨18, _⟩ => ⟨S8000000, .f32⟩
  | .hbm, ⟨19, _⟩ => ⟨S8000000, .f32⟩
  | .hbm, ⟨20, _⟩ => ⟨S_, .f32⟩
  | .hbm, ⟨21, _⟩ => ⟨S8000000, .f32⟩
  | .hbm, ⟨22, _⟩ => ⟨S8000000, .f32⟩
  | .hbm, ⟨23, _⟩ => ⟨S_, .f32⟩
  | .hbm, ⟨24, _⟩ => ⟨S8000000, .f32⟩
  | .hbm, ⟨25, _⟩ => ⟨S8000000, .f32⟩
  | .hbm, ⟨26, _⟩ => ⟨S8000000, .f32⟩
  | .hbm, ⟨27, _⟩ => ⟨S8000000, .f32⟩
  | .hbm, ⟨28, _⟩ => ⟨S8000000, .f32⟩
  | .hbm, ⟨29, _⟩ => ⟨S_, .f32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S8000000, .f32⟩
  | .hbm, ⟨35, _⟩ => ⟨S_, .f32⟩
  | .hbm, ⟨36, _⟩ => ⟨S8000000, .f32⟩
  | .hbm, ⟨37, _⟩ => ⟨S8000000, .f32⟩
  | .hbm, ⟨38, _⟩ => ⟨S8000000, .f32⟩
  | .hbm, ⟨39, _⟩ => ⟨S8000000, .f32⟩
  | .hbm, ⟨40, _⟩ => ⟨S8000000, .f32⟩
  | .hbm, ⟨41, _⟩ => ⟨S_, .f32⟩
  | .hbm, ⟨42, _⟩ => ⟨S8000000, .f32⟩
  | .hbm, ⟨43, _⟩ => ⟨S8000000, .f32⟩
  | .hbm, ⟨44, _⟩ => ⟨S8000000, .f32⟩
  | .hbm, ⟨45, _⟩ => ⟨S8000000, .f32⟩
  | .hbm, ⟨46, _⟩ => ⟨S8000000, .f32⟩
  | .hbm, ⟨47, _⟩ => ⟨S_, .f32⟩
  | .hbm, ⟨48, _⟩ => ⟨S8000000, .f32⟩
  | .hbm, ⟨49, _⟩ => ⟨S8000000, .f32⟩
  | .hbm, ⟨50, _⟩ => ⟨S_, .f32⟩
  | .hbm, ⟨51, _⟩ => ⟨S8000000, .f32⟩
  | .hbm, ⟨52, _⟩ => ⟨S8000000, .f32⟩
  | .hbm, ⟨53, _⟩ => ⟨S8000000, .f32⟩
  | .hbm, ⟨54, _⟩ => ⟨S8000000, .f32⟩
  | .hbm, ⟨55, _⟩ => ⟨S8000000, .f32⟩
  | .hbm, ⟨56, _⟩ => ⟨S_, .f32⟩
  | .hbm, ⟨57, _⟩ => ⟨S8000000, .f32⟩
  | .hbm, ⟨58, _⟩ => ⟨S8000000, .f32⟩
  | .hbm, ⟨59, _⟩ => ⟨S8000000, .f32⟩
  | .hbm, ⟨60, _⟩ => ⟨S8000000, .f32⟩
  | .hbm, ⟨61, _⟩ => ⟨S8000000, .f32⟩
  | .hbm, ⟨62, _⟩ => ⟨S_, .f32⟩
  | .hbm, ⟨63, _⟩ => ⟨S8000000, .f32⟩
  | .hbm, ⟨64, _⟩ => ⟨S8000000, .f32⟩
  | .hbm, ⟨65, _⟩ => ⟨S8000000, .f32⟩
  | .hbm, ⟨66, _⟩ => ⟨S8000000, .f32⟩
  | .hbm, ⟨67, _⟩ => ⟨S8000000, .f32⟩
  | .hbm, ⟨68, _⟩ => ⟨S_, .f32⟩
  | .hbm, ⟨69, _⟩ => ⟨S8000000, .f32⟩
  | .hbm, ⟨70, _⟩ => ⟨S8000000, .f32⟩
  | .hbm, ⟨71, _⟩ => ⟨S8000000, .f32⟩
  | .hbm, ⟨72, _⟩ => ⟨S8000000, .f32⟩
  | .hbm, ⟨73, _⟩ => ⟨S8000000, .f32⟩
  | .hbm, ⟨74, _⟩ => ⟨S_, .f32⟩
  | .hbm, ⟨75, _⟩ => ⟨S8000000, .f32⟩
  | .hbm, ⟨76, _⟩ => ⟨S8000000, .f32⟩
  | .hbm, ⟨77, _⟩ => ⟨S_, .f32⟩
  | .hbm, ⟨78, _⟩ => ⟨S8000000, .f32⟩
  | .hbm, ⟨79, _⟩ => ⟨S8000000, .f32⟩
  | .hbm, ⟨80, _⟩ => ⟨S8000000x1, .f32⟩
  | .hbm, ⟨81, _⟩ => ⟨S8000000x1, .f32⟩
  | .hbm, ⟨82, _⟩ => ⟨S8000000x1, .f32⟩
  | .hbm, ⟨83, _⟩ => ⟨S8000000x1, .f32⟩
  | .hbm, ⟨84, _⟩ => ⟨S8000000x1, .f32⟩
  | .hbm, ⟨85, _⟩ => ⟨S8000000x1, .f32⟩
  | .hbm, ⟨86, _⟩ => ⟨S8000000x1, .f32⟩
  | .hbm, ⟨87, _⟩ => ⟨S8000000x1, .f32⟩
  | .hbm, ⟨88, _⟩ => ⟨S8000000x1, .f32⟩
  | .hbm, ⟨89, _⟩ => ⟨S8000000x9, .f32⟩
  | .hbm, ⟨90, _⟩ => ⟨S8000000x3x3, .f32⟩
  | .hbm, ⟨91, _⟩ => ⟨S8000000x1x3, .f32⟩
  | .hbm, ⟨92, _⟩ => ⟨S8000000x3x3, .f32⟩
  | .hbm, ⟨93, _⟩ => ⟨S8000000x3x3, .f32⟩
  | .hbm, ⟨94, _⟩ => ⟨S8000000x3x3, .f32⟩
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]

class Facts₀ : Prop where
  reducesTo_S8000000x4_S8000000_d1 : S8000000x4.ReducesTo [1] S8000000
  h_S_ : 0 < S_.numel
  bcast_S8000000_S8000000x1_0 : S8000000.BroadcastsInDim S8000000x1 (![0] : Fin 1 → Fin S8000000x1.rank)
  bcast_S8000000x1_S8000000x4_0_1 : S8000000x1.BroadcastsInDim S8000000x4 (![0, 1] : Fin 2 → Fin S8000000x4.rank)
  slices_S8000000x4_S8000000x1_0_0 : S8000000x4.Slices ![0, 0] S8000000x1
  shapeCasts_S8000000x1_S8000000 : S8000000x1.ShapeCasts S8000000
  slices_S8000000x4_S8000000x1_0_1 : S8000000x4.Slices ![0, 1] S8000000x1
  slices_S8000000x4_S8000000x1_0_2 : S8000000x4.Slices ![0, 2] S8000000x1
  slices_S8000000x4_S8000000x1_0_3 : S8000000x4.Slices ![0, 3] S8000000x1
  bcast_S_S8000000 : S_.BroadcastsInDim S8000000 (![] : Fin 0 → Fin S8000000.rank)
  concatenates_S8000000x1_S8000000x1_S8000000x1_S8000000x1_S8000000x1_S8000000x1_S8000000x1_S8000000x1_S8000000x1_S8000000x9_d1 : Shape.Concatenates [S8000000x1, S8000000x1, S8000000x1, S8000000x1, S8000000x1, S8000000x1, S8000000x1, S8000000x1, S8000000x1] S8000000x9 1
  shapeCasts_S8000000x9_S8000000x3x3 : S8000000x9.ShapeCasts S8000000x3x3
  bcast_S8000000x3_S8000000x1x3_0_2 : S8000000x3.BroadcastsInDim S8000000x1x3 (![0, 2] : Fin 2 → Fin S8000000x1x3.rank)
  bcast_S8000000x1x3_S8000000x3x3_0_1_2 : S8000000x1x3.BroadcastsInDim S8000000x3x3 (![0, 1, 2] : Fin 3 → Fin S8000000x3x3.rank)
  dot_S8000000x3x3_S8000000x3x3_S8000000x3x3_2_2_1_1_0_0_wf : DotDims.WF S8000000x3x3 S8000000x3x3 S8000000x3x3 [2] [2] [1] [1] [0] [0]

variable [Facts₀]

def dot_S8000000x3x3_S8000000x3x3_S8000000x3x3_2_2_1_1_0_0 : DotDims S8000000x3x3 S8000000x3x3 S8000000x3x3 where
  lhsContracting := [2]
  rhsContracting := [2]
  lhsNonContracting := [1]
  rhsNonContracting := [1]
  lhsBatch := [0]
  rhsBatch := [0]
  wf := dot_S8000000x3x3_S8000000x3x3_S8000000x3x3_2_2_1_1_0_0_wf

class Facts : Prop extends Facts₀ where

variable [Facts]
-- ==== Proof.CovSpec.lean ====
/-
  The covariance of a scaled rotation, entry by entry, over the extended reals.

  A quaternion u = (w, x, y, z) gives the 3 x 3 matrix R(u) whose entries are the usual quadratic forms
  1 - 2 (y y + z z), 2 (x y - w z), ...; with scales s = (s0, s1, s2) the matrix M = R(u) diag(s) has
  M a j = R a j * s j, and the covariance is M M^T: entry (a, b) is the sum over j of M a j * M b j.
  The quaternion is first divided by its length.  One program multiplies each component by the reciprocal
  square root of the sum of squares, the other divides it by the square root of that sum: for a positive sum
  (the infinite sum included) the two are one extended real.  One program forms only the upper triangle
  (each entry grouped (t0 + t1) + t2) and copies it below the diagonal; the other sums all nine entries:
  the product of extended reals commutes, so the lower entries agree too.
-/
import Idealize.ShloMosaic.PureOps.Ideal
import Idealize.ShloMosaic.Lib.ValueIdx
import Mathlib.Algebra.BigOperators.Fin

noncomputable section

open scoped BigOperators

namespace Cert.Cov

open Idealize.ShloMosaic Idealize.ShloMosaic.ValueIdx

/-- The float words 1.0 and 2.0, kept as words: both programs carry the same two. -/
abbrev one : EReal := Ideal.ofBits .f32 0x3F800000#32
abbrev two : EReal := Ideal.ofBits .f32 0x40000000#32

/-- The sum of the squares of a quaternion's four components. -/
def sumSq (q : Fin 4 → EReal) : EReal := ∑ k : Fin 4, q k * q k

/-- Normalising by the reciprocal square root of the sum of squares. -/
def unitMul (q : Fin 4 → EReal) : Fin 4 → EReal := fun c => q c * Ideal.rsqrt (sumSq q)

/-- Normalising by dividing by the square root of the sum of squares. -/
def unitDiv (q : Fin 4 → EReal) : Fin 4 → EReal := fun c => Ideal.div (q c) (Ideal.sqrt (sumSq q))

/-- For a positive extended real s, multiplying by 1/sqrt s and dividing by sqrt s agree: at s = +inf both give
    x * 0, and at a positive real the reciprocal square root is the inverse of the square root. -/
theorem mul_rsqrt_eq_div_sqrt (x s : EReal) (hs : 0 < s) : x * Ideal.rsqrt s = Ideal.div x (Ideal.sqrt s) := by
  induction s using EReal.rec with
  | bot => exact absurd hs (by simp)
  | top =>
    rw [Ideal.rsqrt_top, Ideal.sqrt_top, Ideal.div, if_neg (by simp), EReal.inv_top]
  | coe r =>
    have hr : 0 < r := by exact_mod_cast hs
    have hsq : Real.sqrt r ≠ 0 := (Real.sqrt_pos.2 hr).ne'
    rw [Ideal.rsqrt_coe, if_neg (not_lt.2 hr.le), if_neg hr.ne', Ideal.sqrt_coe, if_neg (not_lt.2 hr.le),
      Ideal.div_coe hsq, one_div]

theorem unitMul_eq_unitDiv (q : Fin 4 → EReal) (h : 0 < sumSq q) : unitMul q = unitDiv q :=
  funext fun c => mul_rsqrt_eq_div_sqrt (q c) (sumSq q) h

/-- The rotation matrix of the quaternion (w, x, y, z), in the spelling both programs use. -/
def rot (u : Fin 4 → EReal) : Fin 3 → Fin 3 → EReal :=
  ![![one - two * (u 2 * u 2 + u 3 * u 3), two * (u 1 * u 2 - u 0 * u 3), two * (u 1 * u 3 + u 0 * u 2)],
    ![two * (u 1 * u 2 + u 0 * u 3), one - two * (u 1 * u 1 + u 3 * u 3), two * (u 2 * u 3 - u 0 * u 1)],
    ![two * (u 1 * u 3 - u 0 * u 2), two * (u 2 * u 3 + u 0 * u 1), one - two * (u 1 * u 1 + u 2 * u 2)]]

/-- The rotation with column j scaled by s j. -/
def scaled (u : Fin 4 → EReal) (s : Fin 3 → EReal) (a j : Fin 3) : EReal := rot u a j * s j

/-- Entry (a, b) of (R diag s) (R diag s)^T. -/
def cov (u : Fin 4 → EReal) (s : Fin 3 → EReal) (a b : Fin 3) : EReal := ∑ j : Fin 3, scaled u s a j * scaled u s b j

theorem cov_comm (u : Fin 4 → EReal) (s : Fin 3 → EReal) (a b : Fin 3) : cov u s a b = cov u s b a :=
  Finset.sum_congr rfl fun j _ => mul_comm _ _

/-- The nine entries in row-major order, the lower triangle copied from the upper: what one program stores. -/
def upperCopied (u : Fin 4 → EReal) (s : Fin 3 → EReal) : Fin 9 → EReal :=
  ![cov u s 0 0, cov u s 0 1, cov u s 0 2, cov u s 0 1, cov u s 1 1, cov u s 1 2, cov u s 0 2, cov u s 1 2, cov u s 2 2]

/-- Row-major position k of the 3 x 3 matrix is entry (k / 3, k % 3). -/
theorem upperCopied_eq (u : Fin 4 → EReal) (s : Fin 3 → EReal) (a b : Fin 3) (k : Fin 9) (hk : k.val = 3 * a.val + b.val) :
    upperCopied u s k = cov u s a b := by
  fin_cases a <;> fin_cases b <;> fin_cases k <;> simp at hk <;>
    first
      | rfl
      | exact cov_comm u s _ _

/-- The whole result [N, 3, 3] as one function of the two argument arrays, for a chosen normalisation. -/
def result (nrm : (Fin 4 → EReal) → Fin 4 → EReal) (rotA : (⟨2, ![8000000, 4]⟩ : Shape).Idx → EReal)
    (scA : (⟨2, ![8000000, 3]⟩ : Shape).Idx → EReal) : (⟨3, ![8000000, 3, 3]⟩ : Shape).Idx → EReal :=
  fun i => cov (nrm fun c => rotA (ix2 (i 0) c)) (fun j => scA (ix2 (i 0) j)) (i 1) (i 2)

/-- The same values laid out [N, 9], row n holding the nine entries in row-major order. -/
def flat (nrm : (Fin 4 → EReal) → Fin 4 → EReal) (rotA : (⟨2, ![8000000, 4]⟩ : Shape).Idx → EReal)
    (scA : (⟨2, ![8000000, 3]⟩ : Shape).Idx → EReal) : (⟨2, ![8000000, 9]⟩ : Shape).Idx → EReal :=
  fun i => upperCopied (nrm fun c => rotA (ix2 (i 0) c)) (fun j => scA (ix2 (i 0) j)) (i 1)

/-- Where every row of the rotation array has a positive sum of squares the two normalisations give one result. -/
theorem result_congr (rotA : (⟨2, ![8000000, 4]⟩ : Shape).Idx → EReal) (scA : (⟨2, ![8000000, 3]⟩ : Shape).Idx → EReal)
    (h : ∀ n : Fin 8000000, 0 < sumSq fun c => rotA (ix2 n c)) : result unitMul rotA scA = result unitDiv rotA scA := by
  funext i
  unfold result
  rw [unitMul_eq_unitDiv _ (h (i 0))]

end Cert.Cov

end
-- ==== Proof.LibConcatCols.lean ====
/-
  Nine columns joined side by side, read at an entry (a general lemma: nothing here depends on a program).

  Nine arrays of shape [R, 1] concatenated along axis 1 give an array [R, 9] whose entry (p, k) is the k-th
  column's entry (p, 0): each piece has extent one on the joined axis, so the pieces before piece k cover
  exactly the coordinates 0 .. k-1.
-/
import Idealize.ShloMosaic.Lib.ValueIdx
import Idealize.ShloMosaic.Lib.Pipeline.Value

noncomputable section

namespace Cert.Lib.ConcatCols

open Idealize.ShloMosaic Idealize.ShloMosaic.ValueIdx

/-- Off the joined axis the entry (p, 0) of a column and the entry (p, k) of the result have the same coordinate. -/
theorem off_axis {R : Nat} (p : Fin R) (k : Fin 9) :
    ∀ b : Fin (⟨2, ![R, 1]⟩ : Shape).rank, b.cast (rfl : (⟨2, ![R, 1]⟩ : Shape).rank = (⟨2, ![R, 9]⟩ : Shape).rank) ≠ (1 : Fin 2) →
      ((ix2 p (0 : Fin 1)) b).val = ((ix2 p k) (b.cast rfl)).val := by
  intro b hb
  match b with
  | ⟨0, _⟩ => rfl
  | ⟨1, _⟩ => exact absurd rfl hb

set_option maxHeartbeats 2000000 in
/-- Entry (p, k) of nine columns [R, 1] joined along axis 1 is column k at (p, 0). -/
theorem concat9_apply {α : Type} {R : Nat} (x0 x1 x2 x3 x4 x5 x6 x7 x8 : (⟨2, ![R, 1]⟩ : Shape).Idx → α)
    (h : Shape.Concatenates (([⟨⟨2, ![R, 1]⟩, x0⟩, ⟨⟨2, ![R, 1]⟩, x1⟩, ⟨⟨2, ![R, 1]⟩, x2⟩, ⟨⟨2, ![R, 1]⟩, x3⟩, ⟨⟨2, ![R, 1]⟩, x4⟩,
        ⟨⟨2, ![R, 1]⟩, x5⟩, ⟨⟨2, ![R, 1]⟩, x6⟩, ⟨⟨2, ![R, 1]⟩, x7⟩, ⟨⟨2, ![R, 1]⟩, x8⟩] : List ((s : Shape) × (s.Idx → α))).map (·.1))
        ⟨2, ![R, 9]⟩ 1)
    (p : Fin R) (k : Fin 9) :
    concatenate ⟨2, ![R, 9]⟩ 1 [⟨⟨2, ![R, 1]⟩, x0⟩, ⟨⟨2, ![R, 1]⟩, x1⟩, ⟨⟨2, ![R, 1]⟩, x2⟩, ⟨⟨2, ![R, 1]⟩, x3⟩, ⟨⟨2, ![R, 1]⟩, x4⟩,
        ⟨⟨2, ![R, 1]⟩, x5⟩, ⟨⟨2, ![R, 1]⟩, x6⟩, ⟨⟨2, ![R, 1]⟩, x7⟩, ⟨⟨2, ![R, 1]⟩, x8⟩] h (ix2 p k)
      = (![x0, x1, x2, x3, x4, x5, x6, x7, x8] k) (ix2 p (0 : Fin 1)) := by
  fin_cases k
  · show _ = x0 _
    refine concatenate_apply_piece (1 : Fin 2) _ h (ix2 p (0 : Fin 9)) 0 (by simp) ⟨2, ![R, 1]⟩ x0 ?_ rfl 0 ?_ (ix2 p (0 : Fin 1)) (off_axis p _) ?_
    · rfl
    · simp
    · rfl
  · show _ = x1 _
    refine concatenate_apply_piece (1 : Fin 2) _ h (ix2 p (1 : Fin 9)) 1 (by simp) ⟨2, ![R, 1]⟩ x1 ?_ rfl 1 ?_ (ix2 p (0 : Fin 1)) (off_axis p _) ?_
    · rfl
    · simp
    · rfl
  · show _ = x2 _
    refine concatenate_apply_piece (1 : Fin 2) _ h (ix2 p (2 : Fin 9)) 2 (by simp) ⟨2, ![R, 1]⟩ x2 ?_ rfl 2 ?_ (ix2 p (0 : Fin 1)) (off_axis p _) ?_
    · rfl
    · simp
    · rfl
  · show _ = x3 _
    refine concatenate_apply_piece (1 : Fin 2) _ h (ix2 p (3 : Fin 9)) 3 (by simp) ⟨2, ![R, 1]⟩ x3 ?_ rfl 3 ?_ (ix2 p (0 : Fin 1)) (off_axis p _) ?_
    · rfl
    · simp
    · rfl
  · show _ = x4 _
    refine concatenate_apply_piece (1 : Fin 2) _ h (ix2 p (4 : Fin 9)) 4 (by simp) ⟨2, ![R, 1]⟩ x4 ?_ rfl 4 ?_ (ix2 p (0 : Fin 1)) (off_axis p _) ?_
    · rfl
    · simp
    · rfl
  · show _ = x5 _
    refine concatenate_apply_piece (1 : Fin 2) _ h (ix2 p (5 : Fin 9)) 5 (by simp) ⟨2, ![R, 1]⟩ x5 ?_ rfl 5 ?_ (ix2 p (0 : Fin 1)) (off_axis p _) ?_
    · rfl
    · simp
    · rfl
  · show _ = x6 _
    refine concatenate_apply_piece (1 : Fin 2) _ h (ix2 p (6 : Fin 9)) 6 (by simp) ⟨2, ![R, 1]⟩ x6 ?_ rfl 6 ?_ (ix2 p (0 : Fin 1)) (off_axis p _) ?_
    · rfl
    · simp
    · rfl
  · show _ = x7 _
    refine concatenate_apply_piece (1 : Fin 2) _ h (ix2 p (7 : Fin 9)) 7 (by simp) ⟨2, ![R, 1]⟩ x7 ?_ rfl 7 ?_ (ix2 p (0 : Fin 1)) (off_axis p _) ?_
    · rfl
    · simp
    · rfl
  · show _ = x8 _
    refine concatenate_apply_piece (1 : Fin 2) _ h (ix2 p (8 : Fin 9)) 8 (by simp) ⟨2, ![R, 1]⟩ x8 ?_ rfl 8 ?_ (ix2 p (0 : Fin 1)) (off_axis p _) ?_
    · rfl
    · simp
    · rfl

end Cert.Lib.ConcatCols

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«161359_j39608188403926_1_alg».proof.Proof.LibLayoutCol
import proofs.«161359_j39608188403926_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.KernelRow.lean ====
/-
  One row of the kernel's block, entry by entry.

  The body loads a block of 4000 quaternions [4000, 4] and 4000 scale triples [4000, 3] and stores a block [4000, 9].
  Every operation between is rowwise: the sum of squares of a row (a lane sum kept as a column), its reciprocal
  square root broadcast back over the four columns, the four normalised components cut out as columns, the nine
  quadratic forms of the rotation, their products with the scales, the six sums of three products of the upper
  triangle, and the nine columns joined in row-major order with the lower triangle copied.  So entry (p, k) of the
  stored block is entry k of the covariance of row p alone.
-/
import proofs.«161359_j39608188403926_1_alg».proof.Proof.Gen.KernelIdeal.Skeleton
import proofs.«161359_j39608188403926_1_alg».proof.Proof.CovSpec
import proofs.«161359_j39608188403926_1_alg».proof.Proof.LibConcatCols
import proofs.«161359_j39608188403926_1_alg».proof.Proof.LibColSum
import Idealize.ShloMosaic.Lib.ValueIdx
import Idealize.ShloMosaic.Lib.Pipeline.Value
import Idealize.ShloMosaic.PureOps.Ideal.Laws

noncomputable section

open scoped BigOperators

namespace Cert.Cov.Kernel

open Idealize.ShloMosaic Idealize.ShloMosaic.ValueIdx Cert.KernelIdeal Cert.KernelIdeal.Gen Cert.Cov

/-- A one-column slice of a matrix at column c, read at (p, 0), is the matrix at (p, c). -/
theorem sliceCol {α : Type} {A B : Nat} (y : (⟨2, ![A, B]⟩ : Shape).Idx → α) (c : Fin B)
    (h : (⟨2, ![A, B]⟩ : Shape).Slices ![0, c.val] ⟨2, ![A, 1]⟩) (p : Fin A) :
    extractStridedSlice ⟨2, ![A, 1]⟩ ![0, c.val] y h (ix2 p (0 : Fin 1)) = y (ix2 p c) := by
  refine extractStridedSlice_apply ![0, c.val] y h (ix2 p (0 : Fin 1)) (ix2 p c) ?_
  intro a
  match a with
  | ⟨0, _⟩ => show p.val = 0 + p.val; omega
  | ⟨1, _⟩ => show c.val = c.val + 0; omega

variable (x0 : Vec Ideal S4000x4 .f32) (x1 : Vec Ideal S4000x3 .f32) (p : Fin 4000)

/-- Row p of the quaternion block, and of the scale block. -/
abbrev qrow : Fin 4 → EReal := fun c => x0 (ix2 p c)
abbrev srow : Fin 3 → EReal := fun j => x1 (ix2 p j)

/-- The normalised block at (p, c): the entry times the reciprocal square root of its row's sum of squares. -/
theorem unit_entry (c : Fin 4) : k0_pay2 x0 (ix2 p c) = unitMul (qrow x0 p) c := by
  unfold k0_pay2 unitMul sumSq
  show x0 (ix2 p c) * (broadcastTo S4000x4 (rsqrt (F := Ideal) (shapeCast S4000x1 (multiReduction (F := Ideal) .add [1] S4000 (mulf (F := Ideal) x0 x0) 0x00000000#32 reduces_S4000x4_S4000 (.inl rfl) rfl) shapeCasts_S4000_S4000x1)) broadcasts_S4000x1_S4000x4) (ix2 p c) = _
  refine congrArg (x0 (ix2 p c) * ·) ?_
  refine (Cert.Lib.ColSum.bcastColMat_apply _ broadcasts_S4000x1_S4000x4 p c).trans ?_
  show Ideal.rsqrt (shapeCast S4000x1 (multiReduction (F := Ideal) .add [1] S4000 (mulf (F := Ideal) x0 x0) 0x00000000#32 reduces_S4000x4_S4000 (.inl rfl) rfl) shapeCasts_S4000_S4000x1 (ix2 p (0 : Fin 1))) = _
  refine congrArg Ideal.rsqrt ?_
  exact Cert.Lib.ColSum.rowSumCol_apply (mulf (F := Ideal) x0 x0) reduces_S4000x4_S4000 (.inl rfl) rfl shapeCasts_S4000_S4000x1 p 0

/-- The four components of the normalised quaternion of row p, as columns read at (p, 0). -/
theorem w_entry : k0_pay3 x0 (ix2 p (0 : Fin 1)) = unitMul (qrow x0 p) 0 :=
  (sliceCol (k0_pay2 x0) (0 : Fin 4) slices_S4000x4_o0_0_S4000x1 p).trans (unit_entry x0 p 0)
theorem x_entry : k0_pay4 x0 (ix2 p (0 : Fin 1)) = unitMul (qrow x0 p) 1 :=
  (sliceCol (k0_pay2 x0) (1 : Fin 4) slices_S4000x4_o0_1_S4000x1 p).trans (unit_entry x0 p 1)
theorem y_entry : k0_pay5 x0 (ix2 p (0 : Fin 1)) = unitMul (qrow x0 p) 2 :=
  (sliceCol (k0_pay2 x0) (2 : Fin 4) slices_S4000x4_o0_2_S4000x1 p).trans (unit_entry x0 p 2)
theorem z_entry : k0_pay6 x0 (ix2 p (0 : Fin 1)) = unitMul (qrow x0 p) 3 :=
  (sliceCol (k0_pay2 x0) (3 : Fin 4) slices_S4000x4_o0_3_S4000x1 p).trans (unit_entry x0 p 3)

/-- The three scales of row p. -/
theorem s0_entry : k0_pay7 x1 (ix2 p (0 : Fin 1)) = srow x1 p 0 := sliceCol x1 (0 : Fin 3) slices_S4000x3_o0_0_S4000x1 p
theorem s1_entry : k0_pay8 x1 (ix2 p (0 : Fin 1)) = srow x1 p 1 := sliceCol x1 (1 : Fin 3) slices_S4000x3_o0_1_S4000x1 p
theorem s2_entry : k0_pay9 x1 (ix2 p (0 : Fin 1)) = srow x1 p 2 := sliceCol x1 (2 : Fin 3) slices_S4000x3_o0_2_S4000x1 p

/-! ## The rotation's entries, the scaled rotation's, and the covariance's, each as a column read at (p, 0) -/

theorem r00_entry : k0_pay10 x0 (ix2 p (0 : Fin 1)) = rot (unitMul (qrow x0 p)) 0 0 := by
  unfold k0_pay10
  simp only [mulf_apply, addf_apply, subf_apply, broadcast_apply, y_entry, z_entry]
  rfl
theorem r01_entry : k0_pay11 x0 (ix2 p (0 : Fin 1)) = rot (unitMul (qrow x0 p)) 0 1 := by
  unfold k0_pay11
  simp only [mulf_apply, addf_apply, subf_apply, broadcast_apply, w_entry, x_entry, y_entry, z_entry]
  rfl
theorem r02_entry : k0_pay12 x0 (ix2 p (0 : Fin 1)) = rot (unitMul (qrow x0 p)) 0 2 := by
  unfold k0_pay12
  simp only [mulf_apply, addf_apply, subf_apply, broadcast_apply, w_entry, x_entry, y_entry, z_entry]
  rfl
theorem r10_entry : k0_pay13 x0 (ix2 p (0 : Fin 1)) = rot (unitMul (qrow x0 p)) 1 0 := by
  unfold k0_pay13
  simp only [mulf_apply, addf_apply, subf_apply, broadcast_apply, w_entry, x_entry, y_entry, z_entry]
  rfl
theorem r11_entry : k0_pay14 x0 (ix2 p (0 : Fin 1)) = rot (unitMul (qrow x0 p)) 1 1 := by
  unfold k0_pay14
  simp only [mulf_apply, addf_apply, subf_apply, broadcast_apply, x_entry, z_entry]
  rfl
theorem d12_entry : k0_pay15 x0 (ix2 p (0 : Fin 1)) = (unitMul (qrow x0 p)) 2 * (unitMul (qrow x0 p)) 3 - (unitMul (qrow x0 p)) 0 * (unitMul (qrow x0 p)) 1 := by
  unfold k0_pay15
  simp only [mulf_apply, subf_apply, w_entry, x_entry, y_entry, z_entry]

theorem m00_entry : k0_pay16 (k0_pay7 x1) (k0_pay10 x0) (ix2 p (0 : Fin 1)) = scaled (unitMul (qrow x0 p)) (srow x1 p) 0 0 := by
  unfold k0_pay16
  simp only [mulf_apply, addf_apply, subf_apply, broadcast_apply, r00_entry, s0_entry]
  rfl
theorem m01_entry : k0_pay17 (k0_pay8 x1) (k0_pay11 x0) (ix2 p (0 : Fin 1)) = scaled (unitMul (qrow x0 p)) (srow x1 p) 0 1 := by
  unfold k0_pay17
  simp only [mulf_apply, addf_apply, subf_apply, broadcast_apply, r01_entry, s1_entry]
  rfl
theorem m02_entry : k0_pay18 (k0_pay9 x1) (k0_pay12 x0) (ix2 p (0 : Fin 1)) = scaled (unitMul (qrow x0 p)) (srow x1 p) 0 2 := by
  unfold k0_pay18
  simp only [mulf_apply, addf_apply, subf_apply, broadcast_apply, r02_entry, s2_entry]
  rfl
theorem m10_entry : k0_pay19 (k0_pay7 x1) (k0_pay13 x0) (ix2 p (0 : Fin 1)) = scaled (unitMul (qrow x0 p)) (srow x1 p) 1 0 := by
  unfold k0_pay19
  simp only [mulf_apply, addf_apply, subf_apply, broadcast_apply, r10_entry, s0_entry]
  rfl
theorem m11_entry : k0_pay20 (k0_pay8 x1) (k0_pay14 x0) (ix2 p (0 : Fin 1)) = scaled (unitMul (qrow x0 p)) (srow x1 p) 1 1 := by
  unfold k0_pay20
  simp only [mulf_apply, addf_apply, subf_apply, broadcast_apply, r11_entry, s1_entry]
  rfl
theorem m12_entry : k0_pay21 (k0_pay9 x1) (k0_pay15 x0) (ix2 p (0 : Fin 1)) = scaled (unitMul (qrow x0 p)) (srow x1 p) 1 2 := by
  unfold k0_pay21
  simp only [mulf_apply, addf_apply, subf_apply, broadcast_apply, d12_entry, s2_entry]
  rfl
theorem m20_entry : k0_pay22 (k0_pay3 x0) (k0_pay4 x0) (k0_pay5 x0) (k0_pay6 x0) (k0_pay7 x1) (ix2 p (0 : Fin 1)) = scaled (unitMul (qrow x0 p)) (srow x1 p) 2 0 := by
  unfold k0_pay22
  simp only [mulf_apply, addf_apply, subf_apply, broadcast_apply, w_entry, x_entry, y_entry, z_entry, s0_entry]
  rfl
theorem m21_entry : k0_pay23 (k0_pay3 x0) (k0_pay4 x0) (k0_pay5 x0) (k0_pay6 x0) (k0_pay8 x1) (ix2 p (0 : Fin 1)) = scaled (unitMul (qrow x0 p)) (srow x1 p) 2 1 := by
  unfold k0_pay23
  simp only [mulf_apply, addf_apply, subf_apply, broadcast_apply, w_entry, x_entry, y_entry, z_entry, s1_entry]
  rfl
theorem m22_entry : k0_pay24 (k0_pay4 x0) (k0_pay5 x0) (k0_pay9 x1) (ix2 p (0 : Fin 1)) = scaled (unitMul (qrow x0 p)) (srow x1 p) 2 2 := by
  unfold k0_pay24
  simp only [mulf_apply, addf_apply, subf_apply, broadcast_apply, x_entry, y_entry, s2_entry]
  rfl

theorem c00_entry : k0_pay25 (k0_pay7 x1) (k0_pay8 x1) (k0_pay9 x1) (k0_pay10 x0) (k0_pay11 x0) (k0_pay12 x0) (ix2 p (0 : Fin 1)) = cov (unitMul (qrow x0 p)) (srow x1 p) 0 0 := by
  unfold k0_pay25
  simp only [mulf_apply, addf_apply, m00_entry, m01_entry, m02_entry]
  rw [cov, Fin.sum_univ_three]
theorem c01_entry : k0_pay26 (k0_pay7 x1) (k0_pay8 x1) (k0_pay9 x1) (k0_pay10 x0) (k0_pay11 x0) (k0_pay12 x0) (k0_pay13 x0) (k0_pay14 x0) (k0_pay15 x0) (ix2 p (0 : Fin 1)) = cov (unitMul (qrow x0 p)) (srow x1 p) 0 1 := by
  unfold k0_pay26
  simp only [mulf_apply, addf_apply, m00_entry, m01_entry, m02_entry, m10_entry, m11_entry, m12_entry]
  rw [cov, Fin.sum_univ_three]
theorem c02_entry : k0_pay27 (k0_pay3 x0) (k0_pay4 x0) (k0_pay5 x0) (k0_pay6 x0) (k0_pay7 x1) (k0_pay8 x1) (k0_pay9 x1) (k0_pay10 x0) (k0_pay11 x0) (k0_pay12 x0) (ix2 p (0 : Fin 1)) = cov (unitMul (qrow x0 p)) (srow x1 p) 0 2 := by
  unfold k0_pay27
  simp only [mulf_apply, addf_apply, m00_entry, m01_entry, m02_entry, m20_entry, m21_entry, m22_entry]
  rw [cov, Fin.sum_univ_three]
theorem c11_entry : k0_pay28 (k0_pay7 x1) (k0_pay8 x1) (k0_pay9 x1) (k0_pay13 x0) (k0_pay14 x0) (k0_pay15 x0) (ix2 p (0 : Fin 1)) = cov (unitMul (qrow x0 p)) (srow x1 p) 1 1 := by
  unfold k0_pay28
  simp only [mulf_apply, addf_apply, m10_entry, m11_entry, m12_entry]
  rw [cov, Fin.sum_univ_three]
theorem c12_entry : k0_pay29 (k0_pay3 x0) (k0_pay4 x0) (k0_pay5 x0) (k0_pay6 x0) (k0_pay7 x1) (k0_pay8 x1) (k0_pay9 x1) (k0_pay13 x0) (k0_pay14 x0) (k0_pay15 x0) (ix2 p (0 : Fin 1)) = cov (unitMul (qrow x0 p)) (srow x1 p) 1 2 := by
  unfold k0_pay29
  simp only [mulf_apply, addf_apply, m10_entry, m11_entry, m12_entry, m20_entry, m21_entry, m22_entry]
  rw [cov, Fin.sum_univ_three]

/-- The last diagonal entry is formed where the nine columns are joined: the two squares carried in, plus the third. -/
theorem c22_entry : addf (addf (k0_pay30 (k0_pay3 x0) (k0_pay4 x0) (k0_pay5 x0) (k0_pay6 x0) (k0_pay7 x1)) (k0_pay31 (k0_pay3 x0) (k0_pay4 x0) (k0_pay5 x0) (k0_pay6 x0) (k0_pay8 x1))) (mulf (k0_pay24 (k0_pay4 x0) (k0_pay5 x0) (k0_pay9 x1)) (k0_pay24 (k0_pay4 x0) (k0_pay5 x0) (k0_pay9 x1))) (ix2 p (0 : Fin 1)) = cov (unitMul (qrow x0 p)) (srow x1 p) 2 2 := by
  unfold k0_pay30 k0_pay31
  simp only [mulf_apply, addf_apply, m20_entry, m21_entry, m22_entry]
  rw [cov, Fin.sum_univ_three]

/-- What the body stores, as one term of the two loaded blocks. -/
abbrev stored (x0 : Vec Ideal S4000x4 .f32) (x1 : Vec Ideal S4000x3 .f32) : FVec Ideal S4000x9 .f32 :=
  k0_pay1 (k0_pay24 (k0_pay4 x0) (k0_pay5 x0) (k0_pay9 x1)) (k0_pay25 (k0_pay7 x1) (k0_pay8 x1) (k0_pay9 x1) (k0_pay10 x0) (k0_pay11 x0) (k0_pay12 x0)) (k0_pay26 (k0_pay7 x1) (k0_pay8 x1) (k0_pay9 x1) (k0_pay10 x0) (k0_pay11 x0) (k0_pay12 x0) (k0_pay13 x0) (k0_pay14 x0) (k0_pay15 x0)) (k0_pay27 (k0_pay3 x0) (k0_pay4 x0) (k0_pay5 x0) (k0_pay6 x0) (k0_pay7 x1) (k0_pay8 x1) (k0_pay9 x1) (k0_pay10 x0) (k0_pay11 x0) (k0_pay12 x0)) (k0_pay28 (k0_pay7 x1) (k0_pay8 x1) (k0_pay9 x1) (k0_pay13 x0) (k0_pay14 x0) (k0_pay15 x0)) (k0_pay29 (k0_pay3 x0) (k0_pay4 x0) (k0_pay5 x0) (k0_pay6 x0) (k0_pay7 x1) (k0_pay8 x1) (k0_pay9 x1) (k0_pay13 x0) (k0_pay14 x0) (k0_pay15 x0)) (k0_pay30 (k0_pay3 x0) (k0_pay4 x0) (k0_pay5 x0) (k0_pay6 x0) (k0_pay7 x1)) (k0_pay31 (k0_pay3 x0) (k0_pay4 x0) (k0_pay5 x0) (k0_pay6 x0) (k0_pay8 x1))

/-- Entry (p, k) of the stored block is entry k of the row-major covariance of row p, the lower triangle copied
    from the upper: the nine columns are joined in that order. -/
theorem stored_entry (k : Fin 9) : stored x0 x1 (ix2 p k) = upperCopied (unitMul (qrow x0 p)) (srow x1 p) k := by
  unfold stored k0_pay1
  refine (Cert.Lib.ConcatCols.concat9_apply _ _ _ _ _ _ _ _ _ _ p k).trans ?_
  fin_cases k
  · exact c00_entry x0 x1 p
  · exact c01_entry x0 x1 p
  · exact c02_entry x0 x1 p
  · exact c01_entry x0 x1 p
  · exact c11_entry x0 x1 p
  · exact c12_entry x0 x1 p
  · exact c02_entry x0 x1 p
  · exact c12_entry x0 x1 p
  · exact c22_entry x0 x1 p

end Cert.Cov.Kernel

end
-- ==== Proof.CovLayout.lean ====
/-
  The flat covariance array [N, 9] reshaped to [N, 3, 3].

  A reshape keeps row-major positions: entry (n, a, b) of the [N, 3, 3] array is entry (n, 3 a + b) of the
  [N, 9] array, and position 3 a + b of a row holds entry (a, b) of that row's covariance.
-/
import proofs.«161359_j39608188403926_1_alg».proof.Proof.CovSpec
import Idealize.ShloMosaic.Lib.Pipeline.Value
import Idealize.ShloMosaic.Lib.ValueIdx

noncomputable section

namespace Cert.Cov

open Idealize.ShloMosaic Idealize.ShloMosaic.ValueIdx

theorem reshape_flat (nrm : (Fin 4 → EReal) → Fin 4 → EReal) (rotA : (⟨2, ![8000000, 4]⟩ : Shape).Idx → EReal)
    (scA : (⟨2, ![8000000, 3]⟩ : Shape).Idx → EReal)
    (h : (⟨2, ![8000000, 9]⟩ : Shape).ShapeCasts ⟨3, ![8000000, 3, 3]⟩) :
    shapeCast ⟨3, ![8000000, 3, 3]⟩ (flat nrm rotA scA) h = result nrm rotA scA := by
  funext i
  obtain ⟨n, a, b, rfl⟩ : ∃ (n : Fin 8000000) (a b : Fin 3), i = ix3 n a b := ⟨i 0, i 1, i 2, eq_ix3 i⟩
  have hk : 3 * a.val + b.val < 9 := by have := a.isLt; have := b.isLt; omega
  refine (shapeCast_apply (flat nrm rotA scA) h (ix3 n a b) (ix2 n ⟨3 * a.val + b.val, hk⟩) ?_).trans ?_
  · rw [Shape.rowMajor_val_two, Shape.rowMajor_val_three]
    show n.val * 9 + (3 * a.val + b.val) = (n.val * 3 + a.val) * 3 + b.val
    omega
  · exact upperCopied_eq _ _ a b ⟨3 * a.val + b.val, hk⟩ rfl

end Cert.Cov

end
-- ==== Proof.KernelArray.lean ====
/-
  From blocks to the array, and the reshape after the region.

  The region has 2000 points; point t reads rows 4000 t .. 4000 t + 3999 of the two argument arrays and writes the
  same rows of the output array [8000000, 9].  A row of the stored block depends on the same row of the two loaded
  blocks alone, so what point t writes back is block t of one whole-array function: the flat covariance array.  The
  blocks tile the array (row r is in block r / 4000), so the array ends holding that function; the reshape to
  [8000000, 3, 3] that follows keeps row-major positions.
-/
import proofs.«161359_j39608188403926_1_alg».proof.Proof.Gen.KernelIdeal.Frame
import proofs.«161359_j39608188403926_1_alg».proof.Proof.KernelRow
import proofs.«161359_j39608188403926_1_alg».proof.Proof.CovLayout
import Idealize.ShloMosaic.Lib.Pipeline.Value
import Idealize.ShloMosaic.Lib.ValueIdx
import Idealize.ShloMosaic.Lib.StableHlo.Run

set_option maxRecDepth 16384

noncomputable section

namespace Cert.Cov.KernelRun

open Idealize.ShloMosaic Idealize.ShloMosaic.TcCoe Idealize.ShloMosaic.ValueIdx Idealize.SL.Sem
open Cert.KernelIdeal Cert.KernelIdeal.Gen Cert.Cov
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The three index maps over the 2000 grid points: block t of each window is block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of block t is row 4000 t + p of the array. -/
def row (t : Fin cfg0.N) (p : Fin 4000) : Fin 8000000 :=
  ⟨t.val * 4000 + p.val, by have ht : t.val < 2000 := lt_of_lt_of_eq t.isLt N_0; have := p.isLt; omega⟩

/-- The argument arrays as the region finds them, at their literal types. -/
abbrev qarr (c : Dev nD) : S8000000x4.Idx → EReal := V m c main_arg0
abbrev sarr (c : Dev nD) : S8000000x3.Idx → EReal := V m c main_arg1
/-- The two input blocks of point t, at their literal types. -/
abbrev qblk (c : Dev nD) (t : Fin cfg0.N) : Vec Ideal S4000x4 .f32 := iblk m c 0 t
abbrev sblk (c : Dev nD) (t : Fin cfg0.N) : Vec Ideal S4000x3 .f32 := iblk m c 1 t

theorem qblk_apply (c : Dev nD) (t : Fin cfg0.N) (p : Fin 4000) (k : Fin 4) :
    qblk m c t (ix2 p k) = qarr m c (ix2 (row t p) k) := by
  obtain ⟨e0, e1, -⟩ := idx_facts t
  unfold qblk iblk
  rw [View.read_apply]
  show V m c main_arg0 _ = V m c main_arg0 _
  refine congrArg (V m c main_arg0) ?_
  funext a
  apply Fin.ext
  match a with
  | ⟨0, _⟩ => show win0_0.index t (0 : Fin 2) * 4000 + 1 * p.val = t.val * 4000 + p.val; rw [e0]; omega
  | ⟨1, _⟩ => show win0_0.index t (1 : Fin 2) * 4 + 1 * k.val = k.val; rw [e1]; omega

theorem sblk_apply (c : Dev nD) (t : Fin cfg0.N) (p : Fin 4000) (k : Fin 3) :
    sblk m c t (ix2 p k) = sarr m c (ix2 (row t p) k) := by
  obtain ⟨-, -, e2, e3, -⟩ := idx_facts t
  unfold sblk iblk
  rw [View.read_apply]
  show V m c main_arg1 _ = V m c main_arg1 _
  refine congrArg (V m c main_arg1) ?_
  funext a
  apply Fin.ext
  match a with
  | ⟨0, _⟩ => show win0_1.index t (0 : Fin 2) * 4000 + 1 * p.val = t.val * 4000 + p.val; rw [e2]; omega
  | ⟨1, _⟩ => show win0_1.index t (1 : Fin 2) * 3 + 1 * k.val = k.val; rw [e3]; omega

/-- Entry (p, k) of the output's block t sits at (4000 t + p, k) of its array. -/
theorem oblk_emb (t : Fin cfg0.N) (p : Fin 4000) (k : Fin 9) :
    ((cfg0.win 2).blk t).view.emb (ix2 p k) = (ix2 (row t p) k : S8000000x9.Idx) := by
  obtain ⟨-, -, -, -, e4, e5⟩ := idx_facts t
  funext a
  apply Fin.ext
  match a with
  | ⟨0, _⟩ => show win0_2.index t (0 : Fin 2) * 4000 + 1 * p.val = t.val * 4000 + p.val; rw [e4]; omega
  | ⟨1, _⟩ => show win0_2.index t (1 : Fin 2) * 9 + 1 * k.val = k.val; rw [e5]; omega

/-- What point t writes back is block t of the flat covariance array of the two argument arrays. -/
theorem flushed_eq (c : Dev nD) (t : Fin cfg0.N) :
    (dats m 0 c).flushed 2 t = ((cfg0.win 2).blk t).view.read (Elt Ideal) (flat unitMul (qarr m c) (sarr m c)) := by
  show (cfg0.win 2).cut (grid0.coords t) ((dats m 0 c).after 2 t) = _
  rw [after0_2]
  unfold out0_2
  rw [View.canon_unit_zero hz]
  simp only [View.ld_unit_zero (S := S4000x4) hz, View.ld_unit_zero (S := S4000x3) hz]
  funext j
  have key : ∀ y : S4000x9.Idx, Kernel.stored (qblk m c t) (sblk m c t) y
      = flat unitMul (qarr m c) (sarr m c) (((cfg0.win 2).blk t).view.emb y) := by
    intro y
    obtain ⟨p, k, rfl⟩ : ∃ (p : Fin 4000) (k : Fin 9), y = ix2 p k := ⟨y 0, y 1, eq_ix2 y⟩
    refine (Kernel.stored_entry (qblk m c t) (sblk m c t) p k).trans ?_
    rw [oblk_emb]
    unfold flat
    have hq : Kernel.qrow (qblk m c t) p = fun c' => qarr m c (ix2 (row t p) c') := funext fun c' => qblk_apply m c t p c'
    have hs : Kernel.srow (sblk m c t) p = fun j' => sarr m c (ix2 (row t p) j') := funext fun j' => sblk_apply m c t p j'
    rw [hq, hs]
  exact key j

/-- An index of the output's array is in block t iff each coordinate is in the block's range on its axis. -/
theorem mem_blk (t : Fin cfg0.N) (i : S8000000x9.Idx) :
    i ∈ ((cfg0.win 2).blk t).view.set ↔ ∀ a : Fin 2, win0_2.index t a * S4000x9.size a ≤ (i a).val ∧ (i a).val < win0_2.index t a * S4000x9.size a + S4000x9.size a := by
  show i ∈ ((View.whole main_call0_v0).slice (win0_2.rect t)).set ↔ _
  rw [View.set_slice_whole, Rect.mem_set_unit]
  exact Iff.rfl

/-- Every row of the output's array lies in the block of the point (row / 4000), and every point writes back. -/
theorem cover (i : S8000000x9.Idx) : ∃ t : Fin cfg0.N, (cfg0.win 2).flush t = true ∧ i ∈ ((cfg0.win 2).blk t).view.set := by
  have hi0 : (i 0).val < 8000000 := (i 0).isLt
  have hi1 : (i 1).val < 9 := (i 1).isLt
  have hN : cfg0.N = 2000 := N_0
  have ht : (i 0).val / 4000 < cfg0.N := by rw [hN]; omega
  obtain ⟨-, -, -, -, e4, e5⟩ := idx_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win0_2.index ⟨(i 0).val / 4000, ht⟩ (1 : Fin 2) * 9 ≤ (i 1).val ∧ (i 1).val < win0_2.index ⟨(i 0).val / 4000, ht⟩ (1 : Fin 2) * 9 + 9
    rw [e5]
    omega

/-- The output's array after the region: the flat covariance array of the two argument arrays. -/
theorem final (c : Dev nD) : (dats m 0 c).arrAt 2 cfg0.N = flat unitMul (qarr m c) (sarr m c) :=
  (dats m 0 c).arrAt_eq_of_cover 2 (flat unitMul (qarr m c) (sarr m c)) (fun t _ => flushed_eq m c t) cover

/-- The reshape after the region reads the output's array as the region left it: the result is the covariance,
    row by row, with the reciprocal-square-root normalisation. -/
theorem tail_eq (c : Dev nD) : Pipeline.afterTail₀ cfgs (dats m) 0 (V0 m) [hostOps1] c main_v0 = result unitMul (qarr m c) (sarr m c) := by
  unfold Pipeline.afterTail₀
  show StableHlo.after hostOps1 _ (Proc.devRef .tc main_v0) = _
  after_results
  have e := Pipeline.withArrays_arr spec0 launch0.win.arr_inj c (V0 m c) (fun w => (dats m 0 c).arrAt w cfg0.N) 2
  funext i
  show shapeCast S8000000x3x3 (Pipeline.withArrays spec0 c (V0 m c) (fun w => (dats m 0 c).arrAt w cfg0.N) (Proc.devRef .tc (Pipeline.arrRef spec0 2))) shapeCasts_S8000000x9_S8000000x3x3 i = _
  rw [e, final]
  exact congrFun (reshape_flat unitMul (qarr m c) (sarr m c) shapeCasts_S8000000x9_S8000000x3x3) i

/-- The run, read: the result array ends at the covariance with the reciprocal-square-root normalisation of the
    arguments' launch contents, and the arguments end unchanged. -/
theorem run : θ_run defs (onTc (τ := τ) (main (F := Ideal))) ⟨m, fun _ => 0, ρ⟩ fun r => ∀ c : Dev nD,
      r.2.mem ((c.tc : Thread nD τ).loc main_v0)
        = result unitMul (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0 (Pipeline.mem_restRefs_of main_v0 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Cov.KernelRun

end
-- ==== Proof.RefRead.lean ====
/-
  The dividing program's result, read at an entry.

  For each row n the program forms the sum of the squares of the four quaternion components (a sum that starts
  from the word 0.0, which is the extended real 0), takes its square root, and divides each component by it:
  the row becomes the quaternion divided by its length.  From its components w, x, y, z it forms the nine
  entries of the rotation matrix, lays them side by side as a row of nine and reads that row as a 3 x 3 matrix
  in row-major order (position 3 a + b is entry (a, b)).  Each column j is scaled by the row's scale s j, and
  the result's entry (a, b) is the sum over k of (R a k * s k) * (R b k * s k): the covariance of the scaled
  rotation, with the dividing normalisation.
-/
import proofs.«161359_j39608188403926_1_alg».proof.Proof.Gen.ReferenceIdeal.Read
import proofs.«161359_j39608188403926_1_alg».proof.Proof.CovSpec
import proofs.«161359_j39608188403926_1_alg».proof.Proof.LibConcatCols
import Idealize.ShloMosaic.Lib.ValueIdx
import Idealize.ShloMosaic.Lib.Pipeline.Value
import Idealize.ShloMosaic.PureOps.Ideal.Laws

noncomputable section

open scoped BigOperators

namespace Cert.Cov.Ref

open Idealize.ShloMosaic Idealize.ShloMosaic.ValueIdx Cert.ReferenceIdeal Cert.ReferenceIdeal.Read

/-- The two argument arrays: quaternions [N, 4] and scales [N, 3]. -/
abbrev Quat := (⟨Cert.ReferenceIdeal.S8000000x4, .f32⟩ : BufTy).Contents (Elt Ideal)
abbrev Scl := (⟨Cert.ReferenceIdeal.S8000000x3, .f32⟩ : BufTy).Contents (Elt Ideal)

/-- Row n of the quaternion array. -/
abbrev row (x0 : Quat) (n : Fin 8000000) : Fin 4 → EReal := fun c => x0 (ix2 n c)

/-- Row n divided by its length. -/
abbrev unit (x0 : Quat) (n : Fin 8000000) : Fin 4 → EReal := unitDiv (row x0 n)

/-- The reduction over axis 1 of the squares, started from the word 0.0, is the row's sum of squares. -/
theorem sumSq_apply (x0 : Quat) (n : Fin 8000000) :
    val_main_call0_v1 (F := Ideal) x0 (ix1 n) = sumSq (row x0 n) := by
  rw [val_main_call0_v1_apply, val_main_call0_cst_apply, Ideal.ofBits_def, Ideal.ofBits_zero_f32, zero_add]
  unfold sumSq
  refine Finset.sum_congr rfl fun k _ => ?_
  rw [val_main_call0_v0_apply, Ideal.mulf_def]
  have e : idx_main_call0_v1 (ix1 n) k = ix2 n k :=
    funext fun a => Fin.ext (by match a with | ⟨0, _⟩ => rfl | ⟨1, _⟩ => rfl)
  rw [e]

/-- The divided array at (n, c) is component c of the row divided by its length. -/
theorem v2_apply (x0 : Quat) (n : Fin 8000000) (c : Fin 4) :
    val_main_v2 (F := Ideal) x0 (ix2 n c) = unit x0 n c := by
  rw [val_main_v2_apply, Ideal.hostDivf_def, val_main_v1_apply, val_main_v0_apply, Ideal.hostUnary_sqrt_def,
    val_main_call0_v2_apply]
  have e : idx_main_call0_v2 (idx_main_v1 (ix2 n c)) = ix1 n :=
    funext fun a => Fin.ext (by match a with | ⟨0, _⟩ => rfl)
  rw [e, sumSq_apply]
  rfl

/-! The four components of the divided row, as arrays over n. -/

theorem v4_apply (x0 : Quat) (n : Fin 8000000) : val_main_v4 (F := Ideal) x0 (ix1 n) = unit x0 n 0 := by
  rw [val_main_v4_apply, val_main_v3_apply]
  have e : idx_main_v3 (idx_main_v4 (ix1 n)) = ix2 n (0 : Fin 4) :=
    funext fun a => Fin.ext (by
      match a with
      | ⟨0, _⟩ => exact Nat.div_one _
      | ⟨1, _⟩ => rfl)
  rw [e, v2_apply]

theorem v6_apply (x0 : Quat) (n : Fin 8000000) : val_main_v6 (F := Ideal) x0 (ix1 n) = unit x0 n 1 := by
  rw [val_main_v6_apply, val_main_v5_apply]
  have e : idx_main_v5 (idx_main_v6 (ix1 n)) = ix2 n (1 : Fin 4) :=
    funext fun a => Fin.ext (by
      match a with
      | ⟨0, _⟩ => exact Nat.div_one _
      | ⟨1, _⟩ => rfl)
  rw [e, v2_apply]

theorem v8_apply (x0 : Quat) (n : Fin 8000000) : val_main_v8 (F := Ideal) x0 (ix1 n) = unit x0 n 2 := by
  rw [val_main_v8_apply, val_main_v7_apply]
  have e : idx_main_v7 (idx_main_v8 (ix1 n)) = ix2 n (2 : Fin 4) :=
    funext fun a => Fin.ext (by
      match a with
      | ⟨0, _⟩ => exact Nat.div_one _
      | ⟨1, _⟩ => rfl)
  rw [e, v2_apply]

theorem v10_apply (x0 : Quat) (n : Fin 8000000) : val_main_v10 (F := Ideal) x0 (ix1 n) = unit x0 n 3 := by
  rw [val_main_v10_apply, val_main_v9_apply]
  have e : idx_main_v9 (idx_main_v10 (ix1 n)) = ix2 n (3 : Fin 4) :=
    funext fun a => Fin.ext (by
      match a with
      | ⟨0, _⟩ => exact Nat.div_one _
      | ⟨1, _⟩ => rfl)
  rw [e, v2_apply]

/-! The nine entries of the rotation matrix of the divided row, as arrays over n.  Each is a pointwise
    combination of the four component arrays and the words 1.0 and 2.0. -/

/-- Entry (0, 0): 1 - 2 (y y + z z). -/
theorem v17_apply (x0 : Quat) (n : Fin 8000000) : val_main_v17 (F := Ideal) x0 (ix1 n) = rot (unit x0 n) 0 0 := by
  rw [val_main_v17_apply, val_main_v16_apply, val_main_cst_0_apply, val_main_v15_apply, val_main_v14_apply, val_main_cst_apply, val_main_v13_apply, val_main_v11_apply, val_main_v12_apply,
    v8_apply, v10_apply]
  rfl

/-- Entry (0, 1): 2 (x y - w z). -/
theorem v22_apply (x0 : Quat) (n : Fin 8000000) : val_main_v22 (F := Ideal) x0 (ix1 n) = rot (unit x0 n) 0 1 := by
  rw [val_main_v22_apply, val_main_v21_apply, val_main_cst_1_apply, val_main_v20_apply, val_main_v18_apply, val_main_v19_apply,
    v4_apply, v6_apply, v8_apply, v10_apply]
  rfl

/-- Entry (0, 2): 2 (x z + w y). -/
theorem v27_apply (x0 : Quat) (n : Fin 8000000) : val_main_v27 (F := Ideal) x0 (ix1 n) = rot (unit x0 n) 0 2 := by
  rw [val_main_v27_apply, val_main_v26_apply, val_main_cst_2_apply, val_main_v25_apply, val_main_v23_apply, val_main_v24_apply,
    v4_apply, v6_apply, v8_apply, v10_apply]
  rfl

/-- Entry (1, 0): 2 (x y + w z). -/
theorem v32_apply (x0 : Quat) (n : Fin 8000000) : val_main_v32 (F := Ideal) x0 (ix1 n) = rot (unit x0 n) 1 0 := by
  rw [val_main_v32_apply, val_main_v31_apply, val_main_cst_3_apply, val_main_v30_apply, val_main_v28_apply, val_main_v29_apply,
    v4_apply, v6_apply, v8_apply, v10_apply]
  rfl

/-- Entry (1, 1): 1 - 2 (x x + z z). -/
theorem v39_apply (x0 : Quat) (n : Fin 8000000) : val_main_v39 (F := Ideal) x0 (ix1 n) = rot (unit x0 n) 1 1 := by
  rw [val_main_v39_apply, val_main_v38_apply, val_main_cst_5_apply, val_main_v37_apply, val_main_v36_apply, val_main_cst_4_apply, val_main_v35_apply, val_main_v33_apply, val_main_v34_apply,
    v6_apply, v10_apply]
  rfl

/-- Entry (1, 2): 2 (y z - w x). -/
theorem v44_apply (x0 : Quat) (n : Fin 8000000) : val_main_v44 (F := Ideal) x0 (ix1 n) = rot (unit x0 n) 1 2 := by
  rw [val_main_v44_apply, val_main_v43_apply, val_main_cst_6_apply, val_main_v42_apply, val_main_v40_apply, val_main_v41_apply,
    v4_apply, v6_apply, v8_apply, v10_apply]
  rfl

/-- Entry (2, 0): 2 (x z - w y). -/
theorem v49_apply (x0 : Quat) (n : Fin 8000000) : val_main_v49 (F := Ideal) x0 (ix1 n) = rot (unit x0 n) 2 0 := by
  rw [val_main_v49_apply, val_main_v48_apply, val_main_cst_7_apply, val_main_v47_apply, val_main_v45_apply, val_main_v46_apply,
    v4_apply, v6_apply, v8_apply, v10_apply]
  rfl

/-- Entry (2, 1): 2 (y z + w x). -/
theorem v54_apply (x0 : Quat) (n : Fin 8000000) : val_main_v54 (F := Ideal) x0 (ix1 n) = rot (unit x0 n) 2 1 := by
  rw [val_main_v54_apply, val_main_v53_apply, val_main_cst_8_apply, val_main_v52_apply, val_main_v50_apply, val_main_v51_apply,
    v4_apply, v6_apply, v8_apply, v10_apply]
  rfl

/-- Entry (2, 2): 1 - 2 (x x + y y). -/
theorem v61_apply (x0 : Quat) (n : Fin 8000000) : val_main_v61 (F := Ideal) x0 (ix1 n) = rot (unit x0 n) 2 2 := by
  rw [val_main_v61_apply, val_main_v60_apply, val_main_cst_10_apply, val_main_v59_apply, val_main_v58_apply, val_main_cst_9_apply, val_main_v57_apply, val_main_v55_apply, val_main_v56_apply,
    v6_apply, v8_apply]
  rfl

/-! The nine arrays as columns [N, 1]. -/

theorem v62_apply (x0 : Quat) (n : Fin 8000000) :
    val_main_v62 (F := Ideal) x0 (ix2 n (0 : Fin 1)) = rot (unit x0 n) 0 0 := by
  rw [val_main_v62_apply]
  have e : idx_main_v62 (ix2 n (0 : Fin 1)) = ix1 n := funext fun a => Fin.ext (by match a with | ⟨0, _⟩ => rfl)
  rw [e, v17_apply]

theorem v63_apply (x0 : Quat) (n : Fin 8000000) :
    val_main_v63 (F := Ideal) x0 (ix2 n (0 : Fin 1)) = rot (unit x0 n) 0 1 := by
  rw [val_main_v63_apply]
  have e : idx_main_v63 (ix2 n (0 : Fin 1)) = ix1 n := funext fun a => Fin.ext (by match a with | ⟨0, _⟩ => rfl)
  rw [e, v22_apply]

theorem v64_apply (x0 : Quat) (n : Fin 8000000) :
    val_main_v64 (F := Ideal) x0 (ix2 n (0 : Fin 1)) = rot (unit x0 n) 0 2 := by
  rw [val_main_v64_apply]
  have e : idx_main_v64 (ix2 n (0 : Fin 1)) = ix1 n := funext fun a => Fin.ext (by match a with | ⟨0, _⟩ => rfl)
  rw [e, v27_apply]

theorem v65_apply (x0 : Quat) (n : Fin 8000000) :
    val_main_v65 (F := Ideal) x0 (ix2 n (0 : Fin 1)) = rot (unit x0 n) 1 0 := by
  rw [val_main_v65_apply]
  have e : idx_main_v65 (ix2 n (0 : Fin 1)) = ix1 n := funext fun a => Fin.ext (by match a with | ⟨0, _⟩ => rfl)
  rw [e, v32_apply]

theorem v66_apply (x0 : Quat) (n : Fin 8000000) :
    val_main_v66 (F := Ideal) x0 (ix2 n (0 : Fin 1)) = rot (unit x0 n) 1 1 := by
  rw [val_main_v66_apply]
  have e : idx_main_v66 (ix2 n (0 : Fin 1)) = ix1 n := funext fun a => Fin.ext (by match a with | ⟨0, _⟩ => rfl)
  rw [e, v39_apply]

theorem v67_apply (x0 : Quat) (n : Fin 8000000) :
    val_main_v67 (F := Ideal) x0 (ix2 n (0 : Fin 1)) = rot (unit x0 n) 1 2 := by
  rw [val_main_v67_apply]
  have e : idx_main_v67 (ix2 n (0 : Fin 1)) = ix1 n := funext fun a => Fin.ext (by match a with | ⟨0, _⟩ => rfl)
  rw [e, v44_apply]

theorem v68_apply (x0 : Quat) (n : Fin 8000000) :
    val_main_v68 (F := Ideal) x0 (ix2 n (0 : Fin 1)) = rot (unit x0 n) 2 0 := by
  rw [val_main_v68_apply]
  have e : idx_main_v68 (ix2 n (0 : Fin 1)) = ix1 n := funext fun a => Fin.ext (by match a with | ⟨0, _⟩ => rfl)
  rw [e, v49_apply]

theorem v69_apply (x0 : Quat) (n : Fin 8000000) :
    val_main_v69 (F := Ideal) x0 (ix2 n (0 : Fin 1)) = rot (unit x0 n) 2 1 := by
  rw [val_main_v69_apply]
  have e : idx_main_v69 (ix2 n (0 : Fin 1)) = ix1 n := funext fun a => Fin.ext (by match a with | ⟨0, _⟩ => rfl)
  rw [e, v54_apply]

theorem v70_apply (x0 : Quat) (n : Fin 8000000) :
    val_main_v70 (F := Ideal) x0 (ix2 n (0 : Fin 1)) = rot (unit x0 n) 2 2 := by
  rw [val_main_v70_apply]
  have e : idx_main_v70 (ix2 n (0 : Fin 1)) = ix1 n := funext fun a => Fin.ext (by match a with | ⟨0, _⟩ => rfl)
  rw [e, v61_apply]

/-- Nine functions evaluated at one point, entry by entry. -/
theorem pick9 {ι α : Type} (f0 f1 f2 f3 f4 f5 f6 f7 f8 : ι → α) (y0 y1 y2 y3 y4 y5 y6 y7 y8 : α) (p : ι)
    (h0 : f0 p = y0) (h1 : f1 p = y1) (h2 : f2 p = y2) (h3 : f3 p = y3) (h4 : f4 p = y4) (h5 : f5 p = y5) (h6 : f6 p = y6) (h7 : f7 p = y7) (h8 : f8 p = y8) (k : Fin 9) :
    (![f0, f1, f2, f3, f4, f5, f6, f7, f8] k) p = ![y0, y1, y2, y3, y4, y5, y6, y7, y8] k := by
  fin_cases k
  · exact h0
  · exact h1
  · exact h2
  · exact h3
  · exact h4
  · exact h5
  · exact h6
  · exact h7
  · exact h8

/-- The nine columns side by side: row n holds the rotation's entries in row-major order. -/
theorem v71_apply (x0 : Quat) (n : Fin 8000000) (k : Fin 9) :
    val_main_v71 (F := Ideal) x0 (ix2 n k) =
      ![rot (unit x0 n) 0 0, rot (unit x0 n) 0 1, rot (unit x0 n) 0 2, rot (unit x0 n) 1 0, rot (unit x0 n) 1 1, rot (unit x0 n) 1 2, rot (unit x0 n) 2 0, rot (unit x0 n) 2 1, rot (unit x0 n) 2 2] k := by
  unfold val_main_v71
  refine (Cert.Lib.ConcatCols.concat9_apply _ _ _ _ _ _ _ _ _ _ n k).trans ?_
  exact pick9 _ _ _ _ _ _ _ _ _ _ _ _ _ _ _ _ _ _ _ (v62_apply x0 n) (v63_apply x0 n) (v64_apply x0 n) (v65_apply x0 n) (v66_apply x0 n) (v67_apply x0 n) (v68_apply x0 n) (v69_apply x0 n) (v70_apply x0 n) k

/-- Position 3 a + b of the nine entries of a 3 x 3 matrix in row-major order is entry (a, b). -/
theorem rowMajor9 {α : Type} (M : Fin 3 → Fin 3 → α) (a b : Fin 3) (h : 3 * a.val + b.val < 9) :
    ![M 0 0, M 0 1, M 0 2, M 1 0, M 1 1, M 1 2, M 2 0, M 2 1, M 2 2] ⟨3 * a.val + b.val, h⟩ = M a b := by
  fin_cases a <;> fin_cases b <;> rfl

/-- Read as a 3 x 3 matrix in row-major order, entry (a, b) of row n is position 3 a + b. -/
theorem v72_apply (x0 : Quat) (n : Fin 8000000) (a b : Fin 3) :
    val_main_v72 (F := Ideal) x0 (ix3 n a b) = rot (unit x0 n) a b := by
  rw [val_main_v72_apply]
  have ha := a.isLt
  have hb := b.isLt
  have hn := n.isLt
  have h9 : 3 * a.val + b.val < 9 := by omega
  have e : idx_main_v72 (ix3 n a b) = ix2 n (⟨3 * a.val + b.val, h9⟩ : Fin 9) :=
    funext fun d => Fin.ext (by
      match d with
      | ⟨0, _⟩ => show ((n.val * 3 + a.val) * 3 + b.val) / 9 = n.val; omega
      | ⟨1, _⟩ => show ((n.val * 3 + a.val) * 3 + b.val) % 9 = 3 * a.val + b.val; omega)
  rw [e, v71_apply]
  exact rowMajor9 (rot (unit x0 n)) a b h9

/-- The scales broadcast over the matrix rows: entry (n, a, j) is the scale s j of row n. -/
theorem v74_apply (x1 : Scl) (n : Fin 8000000) (a j : Fin 3) :
    val_main_v74 (F := Ideal) x1 (ix3 n a j) = x1 (ix2 n j) := by
  rw [val_main_v74_apply, val_main_v73_apply]
  exact congrArg x1 (funext fun d => Fin.ext (by match d with | ⟨0, _⟩ => rfl | ⟨1, _⟩ => rfl))

/-- The rotation with its columns scaled. -/
theorem v75_apply (x0 : Quat) (x1 : Scl) (n : Fin 8000000) (a j : Fin 3) :
    val_main_v75 (F := Ideal) x0 x1 (ix3 n a j) = scaled (unit x0 n) (fun j => x1 (ix2 n j)) a j := by
  rw [val_main_v75_apply, v72_apply, v74_apply]
  rfl

/-- The contraction over the last axis of the scaled rotation with itself is the covariance. -/
theorem v76_apply (x0 : Quat) (x1 : Scl) (n : Fin 8000000) (a b : Fin 3) :
    val_main_v76 (F := Ideal) x0 x1 (ix3 n a b) = cov (unit x0 n) (fun j => x1 (ix2 n j)) a b := by
  rw [val_main_v76_apply]
  unfold cov
  refine Finset.sum_congr rfl fun k _ => ?_
  have el : lidx_main_v76 (ix3 n a b) k = ix3 n a k :=
    funext fun d => Fin.ext (by match d with | ⟨0, _⟩ => rfl | ⟨1, _⟩ => rfl | ⟨2, _⟩ => rfl)
  have er : ridx_main_v76 (ix3 n a b) k = ix3 n b k :=
    funext fun d => Fin.ext (by match d with | ⟨0, _⟩ => rfl | ⟨1, _⟩ => rfl | ⟨2, _⟩ => rfl)
  rw [el, er, v75_apply, v75_apply]

/-- The dividing program's result is the specification's covariance with the dividing normalisation. -/
theorem ref_result (x0 : (⟨Cert.ReferenceIdeal.S8000000x4, .f32⟩ : BufTy).Contents (Elt Ideal))
    (x1 : (⟨Cert.ReferenceIdeal.S8000000x3, .f32⟩ : BufTy).Contents (Elt Ideal)) :
    Cert.ReferenceIdeal.Read.val_main_v76 (F := Ideal) x0 x1 = Cert.Cov.result Cert.Cov.unitDiv x0 x1 := by
  funext i
  obtain ⟨n, a, b, rfl⟩ : ∃ n a b, i = ix3 n a b := ⟨i 0, i 1, i 2, eq_ix3 i⟩
  exact v76_apply x0 x1 n a b

end Cert.Cov.Ref

end
-- ==== Proof.PreRead.lean ====
/-
  The printed precondition, read back over the extended reals.

  The precondition is a conjunction of three reductions by "and" over whole arrays, each from the constant 1; its third
  conjunct compares, row by row, the sum over the four components of the squared first argument (from the zero word)
  with the zero word broadcast to every row, by the ordered greater-than.  A conjunction that is 1 has both conjuncts 1;
  a reduction by "and" into one element that is 1 met a 1 at every index; the comparison answering 1 at row n says
  the broadcast value there, which is 0, is below the sum there, which is 0 + the sum of the four squares of row n.
  So every row's sum of squares is positive.
-/
import proofs.«161359_j39608188403926_1_alg».proof.Pre_finite_inputs
import proofs.«161359_j39608188403926_1_alg».proof.Proof.CovSpec
import Idealize.ShloMosaic.Lib.ReduceAll
import Idealize.ShloMosaic.Lib.ValueIdx
import Idealize.ShloMosaic.Lib.StableHlo.Predicate
import Idealize.ShloMosaic.PureOps.Ideal.Laws

noncomputable section

open scoped BigOperators

namespace Cert.Cov.Pre

open Idealize.ShloMosaic Idealize.ShloMosaic.ValueIdx Cert.Pre_finite_inputs

instance : Subsingleton S_.Idx := ⟨fun a b => funext fun d => d.elim0⟩

/-- The zero word broadcast to every row reads 0. -/
theorem zeros_apply [Facts] (n : Fin 8000000) :
    broadcastInDim S8000000 ![] Facts.bcast_S_S8000000 (constant (F := Ideal) S_ .f32 0x00000000#32) (ix1 n) = (0 : EReal) := by
  rw [StableHlo.Predicate.bcast_scalar _ Facts.h_S_]
  exact Ideal.ofBits_zero_f32

/-- The sum over axis 1 of the squared array, from the zero word, at row n is the row's sum of squares. -/
theorem rowSum_apply [Facts] (x0 : FVec Ideal S8000000x4 .f32) (n : Fin 8000000) :
    Host.reduceAdd (mulf x0 x0) (constant (F := Ideal) S_ .f32 0x00000000#32) Facts.reducesTo_S8000000x4_S8000000_d1 Facts.h_S_ (ix1 n)
      = Cert.Cov.sumSq fun c => x0 (ix2 n c) := by
  generalize hy : mulf x0 x0 = y0
  simp only [Host.reduceAdd, Ideal.hostReduceAdd_def]
  rw [Ideal.hostReduceAdd_single Facts.reducesTo_S8000000x4_S8000000_d1 (by decide)]
  subst hy
  have hz : constant (F := Ideal) S_ .f32 0x00000000#32 (Shape.Idx.first Facts.h_S_) = (0 : EReal) := Ideal.ofBits_zero_f32
  rw [hz, zero_add]
  unfold Cert.Cov.sumSq
  refine Finset.sum_congr rfl fun k _ => ?_
  have hi : ∀ hr : S8000000x4.Reduces [1] S8000000, hr.lift (ix1 n) k = ix2 n k := fun hr =>
    funext fun a => Fin.ext (by match a with | ⟨0, _⟩ => rfl | ⟨1, _⟩ => rfl)
  rw [hi]
  rfl

/-- At the extended reals, the ordered greater-than comparison answering 1 at an index says the second operand is below the first there. -/
theorem lt_of_ogt {s : Shape} (a b : FVec Ideal s .f32) (i : s.Idx) (h : cmpf .ogt a b i = 1#1) : b i < a i := by
  have h' : Ideal.cmp .ogt (a i) (b i) = 1#1 := h
  simp only [Ideal.cmp, StableHlo.Predicate.ofBool_eq_one_iff, decide_eq_true_eq] at h'
  exact h'

/-- The printed precondition holding says every row of the first argument has a positive sum of squares. -/
theorem rows_pos [Cert.Pre_finite_inputs.Facts] (x0 : FVec Ideal Cert.Pre_finite_inputs.S8000000x4 .f32)
    (x1 : FVec Ideal Cert.Pre_finite_inputs.S8000000x3 .f32)
    (h : Cert.Pre_finite_inputs.fn (F := Ideal) x0 x1 = fun _ => 1#1) :
    ∀ n : Fin 8000000, 0 < Cert.Cov.sumSq fun c => x0 (Idealize.ShloMosaic.ValueIdx.ix2 n c) := by
  intro n
  have h0 := congrFun h ix0
  unfold Cert.Pre_finite_inputs.fn at h0
  dsimp only at h0
  obtain ⟨_, h13⟩ := IntOp.andi_eq_one.1 h0
  have hel := Host.reduce_andi_all _ _ Facts.reducesTo_S8000000_S_d0 Facts.h_S_ ix0 h13 (ix1 n)
  have hlt := lt_of_ogt _ _ (ix1 n) hel
  exact (zeros_apply n).symm.trans_lt (hlt.trans_eq (rowSum_apply x0 n))

end Cert.Cov.Pre

end
-- ==== Proof.lean ====
/-
  The covariance (R diag s)(R diag s)^T of 8,000,000 scaled rotations: a kernel of 2000 row blocks against the
  array program.

  Both programs normalise each quaternion by its length, build the rotation's nine quadratic forms, scale its
  columns and multiply the result by its transpose.  They differ in two places.  The kernel multiplies by the
  reciprocal square root of the sum of squares where the reference divides by its square root: over the extended
  reals these agree exactly where the sum of squares is positive, which the precondition states row by row (at a
  zero row the reference's quotient 0 / 0 is not a number).  And the kernel forms the upper triangle only and copies
  it, where the reference sums all nine entries: the product commutes.  Neither needs the inputs finite.

  The pieces: the specification and its two laws (CovSpec), a row of the kernel's block entry by entry (KernelRow),
  the blocks assembled into the array and the reshape after the region (KernelArray, CovLayout), the reference read
  operation by operation (RefRead), the precondition read back (PreRead).  The three frames are the generated ones;
  the idealization rewrote nothing.
-/
import proofs.«161359_j39608188403926_1_alg».proof.Defs
import proofs.«161359_j39608188403926_1_alg».proof.Proof.Gen.Kernel
import proofs.«161359_j39608188403926_1_alg».proof.Proof.Gen.Kernel.Skeleton
import proofs.«161359_j39608188403926_1_alg».proof.Proof.Gen.Kernel.Launch
import proofs.«161359_j39608188403926_1_alg».proof.Proof.Gen.Kernel.Points
import proofs.«161359_j39608188403926_1_alg».proof.Proof.Gen.Kernel.Frame
import proofs.«161359_j39608188403926_1_alg».proof.Proof.Gen.KernelIdeal
import proofs.«161359_j39608188403926_1_alg».proof.Proof.Gen.KernelIdeal.Skeleton
import proofs.«161359_j39608188403926_1_alg».proof.Proof.Gen.KernelIdeal.Launch
import proofs.«161359_j39608188403926_1_alg».proof.Proof.Gen.KernelIdeal.Points
import proofs.«161359_j39608188403926_1_alg».proof.Proof.Gen.KernelIdeal.Frame
import proofs.«161359_j39608188403926_1_alg».proof.Proof.Gen.ReferenceIdeal
import proofs.«161359_j39608188403926_1_alg».proof.Proof.Gen.ReferenceIdeal.Run
import proofs.«161359_j39608188403926_1_alg».proof.Proof.Gen.ReferenceIdeal.Read
import proofs.«161359_j39608188403926_1_alg».proof.Proof.Gen.Pre_finite_inputs
import proofs.«161359_j39608188403926_1_alg».proof.Proof.KernelArray
import proofs.«161359_j39608188403926_1_alg».proof.Proof.RefRead
import proofs.«161359_j39608188403926_1_alg».proof.Proof.PreRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the covariance of the arguments' launch contents: the kernel's with the
    multiplying normalisation, the reference's with the dividing one, and every row's sum of squares is positive. -/
theorem algebraic : Cert.algebraic_KernelIdeal_ReferenceIdeal := by
  intro m ρ m' ρ' hpre hagree
  refine ⟨_, Cert.Cov.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.Cov.Ref.ref_result, (hagree c).1, (hagree c).2]
  exact (Cert.Cov.result_congr _ _ (Cert.Cov.Pre.rows_pos _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
